-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_arg5 : FVec F S4096x4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) (main_arg5 : FVec F S4096x4096 .f32) (main_arg6 : IVec S4096x4096 1) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x4096 : Shape := ⟨2, ![1, 4096]⟩
abbrev S8192x4096 : Shape := ⟨2, ![8192, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 21
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .i1⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S1x4096, .f32⟩
  | .hbm, ⟨17, _⟩ => ⟨S8192x4096, .f32⟩
  | .hbm, ⟨18, _⟩ => ⟨S8192x4096, .bf16⟩
  | .hbm, ⟨19, _⟩ => ⟨S8192x4096, .f32⟩
  | .hbm, ⟨20, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .i1⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4096x4096, .f32⟩
  | .hbm, ⟨18, _⟩ => ⟨S4096x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.BodyValue.lean ====
/-
  What one grid step of the kernel leaves behind, as values.

  The body keeps an f32 accumulator tile (a VMEM scratch, 1024 × 2048) across the eight steps of the contraction axis:
  at the first step of a run it stores zeros, at every step it adds the product of the current `x` tile (1024 × 512)
  and the current effective-weight tile (2048 × 512, contracted along its LAST axis), and at the last step it writes the
  accumulator plus the broadcast bias row to the output tile. The three control cases of the frame run are: A = first
  step (reset, then accumulate), B = a middle step (accumulate), C = last step (accumulate, then emit).
  Each lemma reads the pieces that case's run found back as the body's pure payloads.
-/
import proofs.«170858_j66700842106980_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- First step of a run: the accumulator is zeroed, read back, and the first partial product added. -/
theorem scratch_first (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : cond0_0 i) (hc1 : ¬cond0_1 i)
    (x0 : Vec F S1024x512 .bf16) (x1 : Vec F S2048x512 .bf16) (x2 : Vec F S1x2048 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) hz]
  simp only [View.readAt_eq_ld, h3.read_unread, h4.read_unread, View.ld_unit_zero (S := S1024x512) hz,
    View.ld_unit_zero (S := S2048x512) hz, View.readCov_unit_zero (S := S1024x2048) _ hz]

/-- A middle step: the partial product is added to what the step before left in the accumulator. -/
theorem scratch_middle (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : ¬cond0_1 i)
    (x0 : Vec F S1024x512 .bf16) (x1 : Vec F S2048x512 .bf16) (x2 : Vec F S1x2048 .f32) (xs0 : Vec F S1024x2048 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x512) hz,
    View.ld_unit_zero (S := S2048x512) hz, View.ld_unit_zero (S := S1024x2048) hz]

/-- The last step leaves the same in the accumulator … -/
theorem scratch_last (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i)
    (x0 : Vec F S1024x512 .bf16) (x1 : Vec F S2048x512 .bf16) (x2 : Vec F S1x2048 .f32) (xs0 : Vec F S1024x2048 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x512) hz,
    View.ld_unit_zero (S := S2048x512) hz, View.ld_unit_zero (S := S1024x2048) hz]

/-- … and writes that accumulator plus the bias row to the output tile. -/
theorem out_last (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i)
    (x0 : Vec F S1024x512 .bf16) (x1 : Vec F S2048x512 .bf16) (x2 : Vec F S1x2048 .f32) (xs0 : Vec F S1024x2048 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x512) hz, View.ld_unit_zero (S := S2048x512) hz, View.ld_unit_zero (S := S1024x2048) hz,
    View.ld_unit_zero (S := S1x2048) hz, View.readCov_unit_zero (S := S1024x2048) _ hz]

end Cert.KernelIdeal.Body

end
-- ==== Proof.TileValue.lean ====
/-
  The body's three payloads read at an index, at the ideal instance, and the windows' blocks read off their arrays.

  * the reset tile is zero everywhere;
  * the accumulate step adds, at (p, q), the sum over the 512 features of the step of x-tile[p, ·] · weight-tile[q, ·]
    (both tiles are contracted along their LAST axis: the weight keeps its (out, in) layout);
  * the emit step adds the bias row, broadcast down the 1024 rows.

  The grid is 8 × 2 × 8 (row tile, column tile, contraction step), the last axis fastest: point t has row tile t / 16,
  column tile (t / 8) % 2 and contraction step t % 8. Each window's block index at a point is decided once over the 128 points.
-/
import proofs.«170858_j66700842106980_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Tile

open Cert.KernelIdeal Cert.KernelIdeal.Gen

/-! ## The tile product's operand indices, axis by axis -/

theorem lhs_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-! ## The payloads at an index -/

/-- The reset tile is zero. -/
theorem zero_tile_apply (j : S1024x2048.Idx) : (k0_pay1 (F := Ideal)) j = 0 := by
  unfold k0_pay1
  rw [shapeCast_self]
  exact Ideal.ofBits_zero_f32

/-- The accumulate step at (p, q): the accumulator there plus the step's partial inner product of row p of the x tile
    and row q of the weight tile. -/
theorem product_tile_apply (x0 : Vec Ideal S1024x512 .bf16) (x1 : Vec Ideal S2048x512 .bf16) (acc : Vec Ideal S1024x2048 .f32)
    (p : Fin 1024) (q : Fin 2048) :
    k0_pay2 x0 x1 acc (ix2 p q) = acc (ix2 p q) + ∑ kk : Fin 512, x0 (ix2 p kk) * x1 (ix2 q kk) := by
  unfold k0_pay2
  simp only [shapeCast_self]
  rw [addf_apply]
  simp only [matmul]
  rw [Ideal.matmul_constant_zero_apply, ← Equiv.sum_comp (contrEquiv1 dot_S1024x512_S2048x512_S1024x2048_1_1_0_0_n_n 512 rfl rfl).symm]
  refine congrArg _ (Finset.sum_congr rfl fun k _ => ?_)
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The emit step at (p, q): the accumulator there plus entry q of the bias row. -/
theorem emit_tile_apply (a : Vec Ideal S1024x2048 .f32) (bias : Vec Ideal S1x2048 .f32) (p : Fin 1024) (q : Fin 2048) :
    k0_pay3 a bias (ix2 p q) = a (ix2 p q) + bias (ix2 (0 : Fin 1) q) := by
  unfold k0_pay3
  simp only [shapeCast_self]
  rw [addf_apply]
  refine congrArg _ (broadcastTo_apply bias broadcasts_S1x2048_S1024x2048 (ix2 p q) (ix2 (0 : Fin 1) q) fun a => ?_)
  match a with
  | ⟨0, _⟩ => show 0 = if (1 : Nat) = 1 then 0 else _; rw [if_pos rfl]
  | ⟨1, _⟩ => show q.val = if (2048 : Nat) = 1 then 0 else q.val; rw [if_neg (by decide)]

/-! ## The windows' block indices over the grid -/

/-- Row tile, column tile and contraction step of each window at point `t`, decided over the 128 points. -/
theorem index_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

end Cert.KernelIdeal.Tile

end
-- ==== Proof.FoldLaw.lean ====
/-
  The algebra that joins the two programs, over an abstract contraction index `D` (the input features) and an abstract
  rank index `R` (the low-rank adapter's inner axis).

  One output entry, at a fixed row of `x` and a fixed output feature, is on the kernel's side

      (∑ d, x d * ((w d + δ d * μ d) + 2 * ∑ r, B r * A r d)) + bias

  (the three weight terms are folded into one effective weight first, then ONE contraction), and on the reference's side

      (((∑ d, x d * w d) + bias) + (∑ r, (∑ d, x d * A r d) * B r) * 2) + ∑ d, x d * (δ d * μ d)

  (three contractions, added afterwards). Over the reals these agree by distributivity and by exchanging the two finite
  sums of the low-rank term. Over the extended reals distributivity fails at the infinities, so the law is stated for
  entries that are real numbers, and proved by pushing the coercion `ℝ → EReal` outwards.

  Also here: a sum over a long axis cut into consecutive blocks (the kernel contracts 512 features per grid step and
  adds the eight partial products up), written with the summand padded by zero beyond the axis so that every partial sum
  is a sum over an initial segment of ℕ.
-/
import Idealize.ShloMosaic.PureOps.Ideal
import Idealize.ShloMosaic.PureOps.Ideal.Laws

noncomputable section

namespace Cert.FoldLaw

open Idealize.ShloMosaic

/-- An extended real that is a real number. -/
def IsReal (v : EReal) : Prop := ∃ r : ℝ, v = (r : EReal)

theorem isReal_coe (r : ℝ) : IsReal (r : EReal) := ⟨r, rfl⟩

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The law over the reals: folding the sparse correction `δ · μ` and twice the low-rank product `B · A` into the weight
    before the contraction gives the sum of the three separate contractions. -/
theorem real_fold {D R : Type*} [Fintype D] [Fintype R] (x w dl mu : D → ℝ) (a : R → D → ℝ) (bb : R → ℝ) (bias : ℝ) :
    (∑ d, x d * ((w d + dl d * mu d) + 2 * ∑ r, bb r * a r d)) + bias
      = (((∑ d, x d * w d) + bias) + (∑ r, (∑ d, x d * a r d) * bb r) * 2) + ∑ d, x d * (dl d * mu d) := by
  have h1 : ∑ d, x d * (2 * ∑ r, bb r * a r d) = (∑ r, (∑ d, x d * a r d) * bb r) * 2 := by
    simp only [Finset.mul_sum, Finset.sum_mul]
    rw [Finset.sum_comm]
    exact Finset.sum_congr rfl fun r _ => Finset.sum_congr rfl fun d _ => by ring
  have h2 : ∑ d, x d * ((w d + dl d * mu d) + 2 * ∑ r, bb r * a r d)
      = (∑ d, x d * w d) + (∑ d, x d * (dl d * mu d)) + ∑ d, x d * (2 * ∑ r, bb r * a r d) := by
    simp only [mul_add, Finset.sum_add_distrib]
  rw [h2, h1]; ring

/-- The same law over the extended reals, for entries that are real numbers. -/
theorem ereal_fold {D R : Type*} [Fintype D] [Fintype R] (x w dl mu : D → EReal) (a : R → D → EReal) (bb : R → EReal)
    (bias : EReal) (hx : ∀ d, IsReal (x d)) (hw : ∀ d, IsReal (w d)) (hdl : ∀ d, IsReal (dl d)) (hmu : ∀ d, IsReal (mu d))
    (ha : ∀ r d, IsReal (a r d)) (hb : ∀ r, IsReal (bb r)) (hbias : IsReal bias) :
    (∑ d, x d * ((w d + dl d * mu d) + ((2 : ℝ) : EReal) * ∑ r, bb r * a r d)) + bias
      = (((∑ d, x d * w d) + bias) + (∑ r, (∑ d, x d * a r d) * bb r) * ((2 : ℝ) : EReal)) + ∑ d, x d * (dl d * mu d) := by
  choose xr hxr using hx
  choose wr hwr using hw
  choose dr hdr using hdl
  choose mr hmr using hmu
  choose ar har using ha
  choose br hbr using hb
  obtain ⟨cr, rfl⟩ := hbias
  simp only [hxr, hwr, hdr, hmr, har, hbr, ← EReal.coe_mul, ← EReal.coe_add, ← coe_sum]
  exact congrArg _ (real_fold xr wr dr mr ar br cr)

/-! ## A long axis cut into consecutive blocks -/

/-- A function on an axis of extent `N`, continued by zero beyond it. -/
def pad {M : Type*} [Zero M] {N : ℕ} (f : Fin N → M) : ℕ → M := fun d => if h : d < N then f ⟨d, h⟩ else 0

theorem pad_of_lt {M : Type*} [Zero M] {N : ℕ} (f : Fin N → M) (d : ℕ) (h : d < N) : pad f d = f ⟨d, h⟩ := dif_pos h

/-- The sum of the padded function over the first `N` naturals is the sum over the axis. -/
theorem sum_pad_full {M : Type*} [AddCommMonoid M] {N : ℕ} (f : Fin N → M) :
    ∑ d ∈ Finset.range N, pad f d = ∑ d : Fin N, f d := by
  rw [Finset.sum_range]
  exact Finset.sum_congr rfl fun d _ => pad_of_lt f d.val d.isLt

/-- One block of `n` consecutive entries starting at `a`. -/
theorem sum_pad_block {M : Type*} [AddCommMonoid M] {N : ℕ} (f : Fin N → M) (a n : ℕ) (h : a + n ≤ N) :
    ∑ k : Fin n, f ⟨a + k.val, by have := k.isLt; omega⟩ = ∑ x ∈ Finset.range n, pad f (a + x) := by
  rw [Finset.sum_range]
  exact Finset.sum_congr rfl fun k _ => (pad_of_lt f _ _).symm

/-- Appending a block to an initial segment. -/
theorem sum_pad_append {M : Type*} [AddCommMonoid M] {N : ℕ} (f : Fin N → M) (a n : ℕ) (h : a + n ≤ N) :
    (∑ d ∈ Finset.range a, pad f d) + ∑ k : Fin n, f ⟨a + k.val, by have := k.isLt; omega⟩
      = ∑ d ∈ Finset.range (a + n), pad f d := by
  rw [sum_pad_block f a n h, Finset.sum_range_add]

/-! ## The literals -/

/-- The binary32 word `0x40000000` is the real number two. -/
theorem ofBits_two : Ideal.ofBits .f32 0x40000000#32 = ((2 : ℝ) : EReal) := by
  simp [Ideal.ofBits, Ideal.ieee, -EReal.coe_mul]
  norm_num

end Cert.FoldLaw

end
-- ==== Proof.Accumulate.lean ====
/-
  The carried accumulator, point by point.

  Point `n` of the 8 × 2 × 8 grid works on row tile `n / 16`, column tile `(n / 8) % 2` and contraction step `n % 8`.
  After it, entry (p, q) of the accumulator tile holds the inner product of row `1024·(n/16) + p` of the bf16 activations
  and row `2048·((n/8)%2) + q` of the bf16 effective weight over the features `0 … 512·(n%8) + 511`: an initial segment of the
  contraction axis, which grows by one block of 512 per step and is reset when a new (row tile, column tile) pair begins.
  Proved by induction on the point, never by enumerating the grid; the extended reals are an additive commutative monoid,
  so no finiteness is needed here.
-/
import proofs.«170858_j66700842106980_2_alg».proof.Proof.BodyValue
import proofs.«170858_j66700842106980_2_alg».proof.Proof.TileValue
import proofs.«170858_j66700842106980_2_alg».proof.Proof.FoldLaw

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Tile Cert.KernelIdeal.Body Cert.FoldLaw

variable (m : (ℓ : Loc nD τ sig) → Buf (Elt Ideal) ℓ)

/-! ## The three operand arrays as the region finds them, and the windows' blocks, at their literal types -/

/-- The activations, reshaped to [8192, 4096] and converted to bf16 by the wrapper. -/
abbrev xarr (c : Dev nD) : Vec Ideal S8192x4096 .bf16 := V m c main_v10
/-- The effective weight [4096, 4096] in bf16, in (out, in) layout. -/
abbrev warr (c : Dev nD) : Vec Ideal S4096x4096 .bf16 := V m c main_v7
/-- The bias as a [1, 4096] row. -/
abbrev barr (c : Dev nD) : Vec Ideal S1x4096 .f32 := V m c main_v8
abbrev xblk (c : Dev nD) (t : Fin cfg0.N) : Vec Ideal S1024x512 .bf16 := iblk m c 0 t
abbrev wblk (c : Dev nD) (t : Fin cfg0.N) : Vec Ideal S2048x512 .bf16 := iblk m c 1 t
abbrev bblk (c : Dev nD) (t : Fin cfg0.N) : Vec Ideal S1x2048 .f32 := iblk m c 2 t

theorem lt128 {n : ℕ} (h : n < cfg0.N) : n < 128 := lt_of_lt_of_eq h (show cfg0.N = 128 from N_0)

/-- Row `p` of point `n`'s row tile, in the [8192, ·] array. -/
def rowOf (n : ℕ) (hn : n < 128) (p : Fin 1024) : Fin 8192 := ⟨1024 * (n / 16) + p.val, by have := p.isLt; omega⟩
/-- Row `q` of point `n`'s column tile, in the [4096, ·] weight (an output feature). -/
def colOf (n : ℕ) (hn : n < 128) (q : Fin 2048) : Fin 4096 := ⟨2048 * (n / 8 % 2) + q.val, by have := q.isLt; omega⟩
/-- Feature `kk` of point `n`'s contraction block. -/
def featOf (n : ℕ) (hn : n < 128) (kk : Fin 512) : Fin 4096 := ⟨512 * (n % 8) + kk.val, by have := kk.isLt; omega⟩

/-- The x window's block at point `t`: rows of the row tile, features of the contraction block. -/
theorem xblk_apply (c : Dev nD) (t : Fin cfg0.N) (p : Fin 1024) (kk : Fin 512) :
    xblk m c t (ix2 p kk) = xarr m c (ix2 (rowOf t.val (lt128 t.isLt) p) (featOf t.val (lt128 t.isLt) kk)) := by
  obtain ⟨h00, h01, -⟩ := index_facts t
  unfold xblk iblk
  rw [View.read_apply]
  show V m c main_v10 _ = V m c main_v10 _
  congr 1
  funext a
  apply Fin.ext
  match a with
  | ⟨0, _⟩ => show win0_0.index t 0 * 1024 + 1 * p.val = 1024 * (t.val / 16) + p.val; rw [h00]; omega
  | ⟨1, _⟩ => show win0_0.index t 1 * 512 + 1 * kk.val = 512 * (t.val % 8) + kk.val; rw [h01]; omega

/-- The weight window's block at point `t`: rows of the column tile (output features), features of the contraction block. -/
theorem wblk_apply (c : Dev nD) (t : Fin cfg0.N) (q : Fin 2048) (kk : Fin 512) :
    wblk m c t (ix2 q kk) = warr m c (ix2 (colOf t.val (lt128 t.isLt) q) (featOf t.val (lt128 t.isLt) kk)) := by
  obtain ⟨-, -, h10, h11, -⟩ := index_facts t
  unfold wblk iblk
  rw [View.read_apply]
  show V m c main_v7 _ = V m c main_v7 _
  congr 1
  funext a
  apply Fin.ext
  match a with
  | ⟨0, _⟩ => show win0_1.index t 0 * 2048 + 1 * q.val = 2048 * (t.val / 8 % 2) + q.val; rw [h10]; omega
  | ⟨1, _⟩ => show win0_1.index t 1 * 512 + 1 * kk.val = 512 * (t.val % 8) + kk.val; rw [h11]; omega

/-- The bias window's block at point `t`: the column tile's stretch of the bias row. -/
theorem bblk_apply (c : Dev nD) (t : Fin cfg0.N) (q : Fin 2048) :
    bblk m c t (ix2 (0 : Fin 1) q) = barr m c (ix2 (0 : Fin 1) (colOf t.val (lt128 t.isLt) q)) := by
  obtain ⟨-, -, -, -, h20, h21, -⟩ := index_facts t
  unfold bblk iblk
  rw [View.read_apply]
  show V m c main_v8 _ = V m c main_v8 _
  congr 1
  funext a
  apply Fin.ext
  match a with
  | ⟨0, _⟩ => show win0_2.index t 0 * 1 + 1 * 0 = 0; rw [h20]
  | ⟨1, _⟩ => show win0_2.index t 1 * 2048 + 1 * q.val = 2048 * (t.val / 8 % 2) + q.val; rw [h21]; omega

/-! ## The summand and the partial inner products -/

/-- One term of the inner product of row `r` of the activations and row `o` of the effective weight. -/
def term (c : Dev nD) (r : Fin 8192) (o : Fin 4096) : Fin 4096 → EReal := fun d => xarr m c (ix2 r d) * warr m c (ix2 o d)

/-- What point `t` adds at (p, q): the inner product over its block of 512 features. -/
theorem step_sum (c : Dev nD) (t : Fin cfg0.N) (p : Fin 1024) (q : Fin 2048) :
    ∑ kk : Fin 512, xblk m c t (ix2 p kk) * wblk m c t (ix2 q kk)
      = ∑ kk : Fin 512, term m c (rowOf t.val (lt128 t.isLt) p) (colOf t.val (lt128 t.isLt) q)
          ⟨512 * (t.val % 8) + kk.val, by have := kk.isLt; have := lt128 t.isLt; omega⟩ :=
  Finset.sum_congr rfl fun kk _ => by rw [xblk_apply, wblk_apply]; rfl

/-! ## What a point leaves in the accumulator, from what the point before left -/

theorem outsAt_congr (c : Dev nD) (a b : ℕ) (ha : a < cfg0.N) (hb : b < cfg0.N) (e : a = b) :
    outsAt0 m c a ha = outsAt0 m c b hb := by subst e; rfl

/-- At the first step of a run (contraction step 0) the accumulator is reset and holds the step's own inner product. -/
theorem first_step (c : Dev nD) (t : Fin cfg0.N) (h0 : t.val % 8 = 0) (p : Fin 1024) (q : Fin 2048) :
    (outsAt0 m c t.val t.isLt).2 (ix2 p q) = ∑ kk : Fin 512, xblk m c t (ix2 p kk) * wblk m c t (ix2 q kk) := by
  have h1 : ¬t.val % 8 = 7 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (product_tile_apply (xblk m c t) (wblk m c t) (k0_pay1 (F := Ideal)) p q).trans ?_
  rw [zero_tile_apply, zero_add]

/-- At every later step the step's inner product is added to what the point before left. -/
theorem later_step (c : Dev nD) (t : Fin cfg0.N) (k : ℕ) (hk : t.val = k + 1) (h0 : ¬t.val % 8 = 0) (p : Fin 1024) (q : Fin 2048) :
    (outsAt0 m c t.val t.isLt).2 (ix2 p q)
      = (outsAt0 m c k (by have := t.isLt; omega)).2 (ix2 p q) + ∑ kk : Fin 512, xblk m c t (ix2 p kk) * wblk m c t (ix2 q kk) := by
  have hprev : outsAt0 m c (t.val - 1) (Nat.lt_of_le_of_lt (Nat.sub_le _ _) t.isLt) = outsAt0 m c k (by have := t.isLt; omega) :=
    outsAt_congr m c _ _ _ _ (by omega)
  by_cases h1 : t.val % 8 = 7
  · rw [outsAt0_C m c t h0 h1]
    dsimp only
    rw [hprev]
    refine (congrFun (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c k (by have := t.isLt; omega)).2) (ix2 p q)).trans ?_
    exact product_tile_apply (xblk m c t) (wblk m c t) _ p q
  · rw [outsAt0_B m c t h0 h1]
    dsimp only
    rw [hprev]
    refine (congrFun (scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c k (by have := t.isLt; omega)).2) (ix2 p q)).trans ?_
    exact product_tile_apply (xblk m c t) (wblk m c t) _ p q

/-! ## The invariant -/

/-- The inner product of point `n`'s row and column over the features seen up to and including its contraction step. -/
def partialSum (c : Dev nD) (n : ℕ) (hn : n < 128) (p : Fin 1024) (q : Fin 2048) : EReal :=
  ∑ d ∈ Finset.range (512 * (n % 8) + 512), pad (term m c (rowOf n hn p) (colOf n hn q)) d

/-- Adding point `t`'s block to the inner product over the features before it gives the inner product up to it. -/
theorem grow (c : Dev nD) (t : Fin cfg0.N) (p : Fin 1024) (q : Fin 2048) (prev : EReal)
    (hprev : prev = ∑ d ∈ Finset.range (512 * (t.val % 8)), pad (term m c (rowOf t.val (lt128 t.isLt) p) (colOf t.val (lt128 t.isLt) q)) d) :
    prev + ∑ kk : Fin 512, xblk m c t (ix2 p kk) * wblk m c t (ix2 q kk) = partialSum m c t.val (lt128 t.isLt) p q := by
  rw [step_sum, hprev]
  unfold partialSum
  exact sum_pad_append _ (512 * (t.val % 8)) 512 (by have := lt128 t.isLt; omega)

/-- After point `n` the accumulator holds, entry by entry, the partial inner product up to `n`'s contraction step. -/
theorem acc_eq (c : Dev nD) (n : ℕ) : ∀ (hn : n < cfg0.N) (p : Fin 1024) (q : Fin 2048),
    (outsAt0 m c n hn).2 (ix2 p q) = partialSum m c n (lt128 hn) p q := by
  induction n with
  | zero =>
    intro hn p q
    refine (first_step m c ⟨0, hn⟩ (Nat.zero_mod 8) p q).trans ?_
    refine (zero_add _).symm.trans (grow m c ⟨0, hn⟩ p q 0 ?_)
    show (0 : EReal) = ∑ d ∈ Finset.range (512 * (0 % 8)), _
    simp
  | succ k ih =>
    intro hn p q
    by_cases h0 : (k + 1) % 8 = 0
    · refine (first_step m c ⟨k + 1, hn⟩ h0 p q).trans ?_
      refine (zero_add _).symm.trans (grow m c ⟨k + 1, hn⟩ p q 0 ?_)
      show (0 : EReal) = ∑ d ∈ Finset.range (512 * ((k + 1) % 8)), _
      rw [h0]; simp
    · refine (later_step m c ⟨k + 1, hn⟩ k rfl h0 p q).trans ?_
      refine grow m c ⟨k + 1, hn⟩ p q _ ?_
      rw [ih (Nat.lt_of_succ_lt hn) p q]
      unfold partialSum
      have hk : k + 1 < 128 := lt128 hn
      have e1 : rowOf k (by omega) p = rowOf (k + 1) hk p :=
        Fin.ext (by show 1024 * (k / 16) + p.val = 1024 * ((k + 1) / 16) + p.val; omega)
      have e2 : colOf k (by omega) q = colOf (k + 1) hk q :=
        Fin.ext (by show 2048 * (k / 8 % 2) + q.val = 2048 * ((k + 1) / 8 % 2) + q.val; omega)
      have e3 : 512 * (k % 8) + 512 = 512 * ((k + 1) % 8) := by omega
      rw [e1, e2, e3]

/-- At a point of the LAST contraction step the accumulator holds the whole inner product. -/
theorem acc_full (c : Dev nD) (t : Fin cfg0.N) (h7 : t.val % 8 = 7) (p : Fin 1024) (q : Fin 2048) :
    (outsAt0 m c t.val t.isLt).2 (ix2 p q)
      = ∑ d : Fin 4096, xarr m c (ix2 (rowOf t.val (lt128 t.isLt) p) d) * warr m c (ix2 (colOf t.val (lt128 t.isLt) q) d) := by
  rw [acc_eq m c t.val t.isLt p q]
  unfold partialSum
  rw [h7]
  exact sum_pad_full (term m c (rowOf t.val (lt128 t.isLt) p) (colOf t.val (lt128 t.isLt) q))

end Cert.KernelIdeal.Acc

end
-- ==== Proof.Output.lean ====
/-
  The region's result array, and the program's result.

  At a point of the last contraction step the body writes the accumulator plus the bias row to the output tile, and
  only those points write their tile back; the sixteen (row tile, column tile) pairs tile the [8192, 4096] result.
  So the result array ends, entry by entry, at the full inner product of a row of the bf16 activations and a row of the
  bf16 effective weight, plus the bias entry of that output feature. The one host operation after the call reshapes
  [8192, 4096] back to [4, 2048, 4096]: row `2048·β + s` is batch `β`, position `s`.
-/
import proofs.«170858_j66700842106980_2_alg».proof.Proof.Accumulate
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.KernelIdeal.Tile Cert.KernelIdeal.Body Cert.KernelIdeal.Acc Cert.FoldLaw

variable (m : (ℓ : Loc nD τ sig) → Buf (Elt Ideal) ℓ) (ρ : Dev nD → PrngReg)

/-- The call's result as one function of its three operand arrays: row · row inner product, plus the bias entry. -/
def kout (c : Dev nD) : Vec Ideal S8192x4096 .f32 := fun j =>
  (∑ d : Fin 4096, xarr m c (ix2 (j 0) d) * warr m c (ix2 (j 1) d)) + barr m c (ix2 (0 : Fin 1) (j 1))

/-- The output tile a last-step point leaves: the result function on that point's rows and columns. -/
theorem out_tile (c : Dev nD) (t : Fin cfg0.N) (h7 : t.val % 8 = 7) (p : Fin 1024) (q : Fin 2048) :
    (outsAt0 m c t.val t.isLt).1 (ix2 p q) = kout m c (ix2 (rowOf t.val (lt128 t.isLt) p) (colOf t.val (lt128 t.isLt) q)) := by
  have h0 : ¬t.val % 8 = 0 := by omega
  have e2 := acc_full m c t h7 p q
  rw [outsAt0_C m c t h0 h7] at e2 ⊢
  dsimp only at e2 ⊢
  have e3 := (congrFun (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2) (ix2 p q)).symm.trans e2
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2) (ix2 p q)).trans ?_
  refine (emit_tile_apply _ (bblk m c t) p q).trans ?_
  rw [e3, bblk_apply]
  rfl

/-- What a write-back writes is the result function read through the point's block of the result array. -/
theorem flushed_eq (c : Dev nD) (t : Fin cfg0.N) (hf : (cfg0.win 3).flush t = true) :
    (dats m 0 c).flushed 3 t = ((cfg0.win 3).blk t).view.read (Elt Ideal) (kout m c) := by
  have h7 : t.val % 8 = 7 := (flush0_3 t).mp hf
  have hN : t.val < 128 := lt128 t.isLt
  obtain ⟨-, -, -, -, -, -, h30, h31⟩ := index_facts t
  funext y
  rw [View.read_apply]
  have hy0 : (y 0).val < 1024 := (y 0).isLt
  have hy1 : (y 1).val < 2048 := (y 1).isLt
  have e1 : ((cfg0.win 3).blk t).view.emb y = ix2 (rowOf t.val hN ⟨(y 0).val, hy0⟩) (colOf t.val hN ⟨(y 1).val, hy1⟩) :=
    funext fun a => Fin.ext (by
      match a with
      | ⟨0, _⟩ => show win0_3.index t 0 * 1024 + 1 * (y 0).val = 1024 * (t.val / 16) + (y 0).val; rw [h30]; omega
      | ⟨1, _⟩ => show win0_3.index t 1 * 2048 + 1 * (y 1).val = 2048 * (t.val / 8 % 2) + (y 1).val; rw [h31]; omega)
  have e2 : (cfg0.win 3).xinj (grid0.coords t) y = ix2 (⟨(y 0).val, hy0⟩ : Fin 1024) (⟨(y 1).val, hy1⟩ : Fin 2048) :=
    funext fun a => by match a with | ⟨0, _⟩ => rfl | ⟨1, _⟩ => rfl
  show (dats m 0 c).after 3 t ((cfg0.win 3).xinj (grid0.coords t) y) = kout m c (((cfg0.win 3).blk t).view.emb y)
  rw [e1, after0_3, e2]
  exact out_tile m c t h7 _ _

/-- Every entry of the result array lies in the tile of some point that writes back: the last-step point of its
    row tile and column tile. -/
theorem covered (c : Dev nD) (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have hlt : (i 0).val / 1024 * 16 + (i 1).val / 2048 * 8 + 7 < cfg0.N := by rw [hN]; omega
  obtain ⟨-, -, -, -, -, -, h30, h31⟩ := index_facts ⟨_, hlt⟩
  refine ⟨⟨_, hlt⟩, (flush0_3 ⟨_, hlt⟩).mpr (by show ((i 0).val / 1024 * 16 + (i 1).val / 2048 * 8 + 7) % 8 = 7; omega), ?_⟩
  show i ∈ ((View.whole main_v11).slice (win0_3.rect ⟨_, hlt⟩)).set
  rw [View.set_slice_whole, Rect.mem_set_unit]
  intro a
  match a with
  | ⟨0, _⟩ =>
    show win0_3.index ⟨_, hlt⟩ 0 * 1024 ≤ (i 0).val ∧ (i 0).val < win0_3.index ⟨_, hlt⟩ 0 * 1024 + 1024
    rw [h30]; show ((i 0).val / 1024 * 16 + (i 1).val / 2048 * 8 + 7) / 16 * 1024 ≤ (i 0).val ∧ (i 0).val < ((i 0).val / 1024 * 16 + (i 1).val / 2048 * 8 + 7) / 16 * 1024 + 1024; omega
  | ⟨1, _⟩ =>
    show win0_3.index ⟨_, hlt⟩ 1 * 2048 ≤ (i 1).val ∧ (i 1).val < win0_3.index ⟨_, hlt⟩ 1 * 2048 + 2048
    rw [h31]; show ((i 0).val / 1024 * 16 + (i 1).val / 2048 * 8 + 7) / 8 % 2 * 2048 ≤ (i 1).val ∧ (i 1).val < ((i 0).val / 1024 * 16 + (i 1).val / 2048 * 8 + 7) / 8 % 2 * 2048 + 2048; omega

/-- So the result array ends holding the result function. -/
theorem final (c : Dev nD) : (dats m 0 c).arrAt 3 cfg0.N = kout m c :=
  (dats m 0 c).arrAt_eq_of_cover 3 (kout m c) (flushed_eq m c) (covered c)

/-- The program's result buffer: the result array reshaped. -/
theorem tail_eq (c : Dev nD) :
    Pipeline.afterTail₀ cfgs (dats m) 0 (V0 m) [hostOps1] c main_v12
      = shapeCast S4x2048x4096 (kout m c) shapeCasts_S8192x4096_S4x2048x4096 := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = kout m c := (Pipeline.withArrays_arr spec0 launch0.win.arr_inj c _ _ 3).trans (final m c)
  rw [hw]
  rfl

end Cert.KernelIdeal.Out

end
-- ==== Proof.Spec.lean ====
/-
  The result of both programs as ONE function of the seven argument arrays, index by index, in its two arrangements.

  With `x` the activations f32[4, 2048, 4096], `W` the frozen weight f32[4096, 4096], `b` the bias f32[4096],
  `A` f32[16, 4096] and `B` f32[4096, 16] the low-rank pair, `δ` the sparse correction f32[4096, 4096] and `μ` its
  0/1 mask read as a float, the output entry at batch `β`, position `s` and output feature `o` is

    folded form   (∑ d, x[β,s,d] · ((W[o,d] + δ[o,d]·μ[o,d]) + 2 · ∑ r, B[o,r]·A[r,d])) + b[o]
    split form    (((∑ d, x[β,s,d]·W[o,d]) + b[o]) + (∑ r, (∑ d, x[β,s,d]·A[r,d]) · B[o,r]) · 2) + ∑ d, x[β,s,d]·(δ[o,d]·μ[o,d])

  The kernel computes the folded form (one effective weight, one contraction, the bias last); the reference computes the
  split form (three contractions). They agree where every entry is a real number (`FoldLaw.ereal_fold`).
-/
import proofs.«170858_j66700842106980_2_alg».proof.Proof.FoldLaw
import Idealize.ShloMosaic.Lib.ValueIdx

noncomputable section

namespace Cert.Spec

open Idealize.ShloMosaic Idealize.ShloMosaic.ValueIdx Cert.FoldLaw

/-- The shapes of the argument arrays. -/
abbrev SX : Shape := ⟨3, ![4, 2048, 4096]⟩
abbrev SW : Shape := ⟨2, ![4096, 4096]⟩
abbrev Sb : Shape := ⟨1, ![4096]⟩
abbrev SA : Shape := ⟨2, ![16, 4096]⟩
abbrev SB : Shape := ⟨2, ![4096, 16]⟩

/-- The scaling `alpha / rank = 32 / 16`, as both programs print it: the binary32 word of two. -/
abbrev two : EReal := Ideal.ofBits .f32 0x40000000#32

/-- The effective weight the kernel's wrapper builds before the call: the frozen weight, plus the masked correction,
    plus twice the low-rank product. -/
def foldedWeight (W dl mu : SW.Idx → EReal) (A : SA.Idx → EReal) (B : SB.Idx → EReal) (o d : Fin 4096) : EReal :=
  (W (ix2 o d) + dl (ix2 o d) * mu (ix2 o d)) + two * ∑ r : Fin 16, B (ix2 o r) * A (ix2 r d)

/-- The folded form: one contraction against the effective weight, then the bias. -/
def foldedForm (x : SX.Idx → EReal) (W : SW.Idx → EReal) (b : Sb.Idx → EReal) (A : SA.Idx → EReal) (B : SB.Idx → EReal)
    (dl mu : SW.Idx → EReal) : SX.Idx → EReal := fun i =>
  (∑ d : Fin 4096, x (ix3 (i 0) (i 1) d) * foldedWeight W dl mu A B (i 2) d) + b (ix1 (i 2))

/-- The split form: the frozen linear map with its bias, plus twice the low-rank branch, plus the sparse branch. -/
def splitForm (x : SX.Idx → EReal) (W : SW.Idx → EReal) (b : Sb.Idx → EReal) (A : SA.Idx → EReal) (B : SB.Idx → EReal)
    (dl mu : SW.Idx → EReal) : SX.Idx → EReal := fun i =>
  (((∑ d : Fin 4096, x (ix3 (i 0) (i 1) d) * W (ix2 (i 2) d)) + b (ix1 (i 2)))
    + (∑ r : Fin 16, (∑ d : Fin 4096, x (ix3 (i 0) (i 1) d) * A (ix2 r d)) * B (ix2 (i 2) r)) * two)
    + ∑ d : Fin 4096, x (ix3 (i 0) (i 1) d) * (dl (ix2 (i 2) d) * mu (ix2 (i 2) d))

/-- Where every entry of every array is a real number the two forms are the same function. -/
theorem folded_eq_split (x : SX.Idx → EReal) (W : SW.Idx → EReal) (b : Sb.Idx → EReal) (A : SA.Idx → EReal)
    (B : SB.Idx → EReal) (dl mu : SW.Idx → EReal)
    (hx : ∀ i, IsReal (x i)) (hW : ∀ i, IsReal (W i)) (hb : ∀ i, IsReal (b i)) (hA : ∀ i, IsReal (A i))
    (hB : ∀ i, IsReal (B i)) (hdl : ∀ i, IsReal (dl i)) (hmu : ∀ i, IsReal (mu i)) :
    foldedForm x W b A B dl mu = splitForm x W b A B dl mu := by
  funext i
  unfold foldedForm splitForm foldedWeight
  rw [show two = ((2 : ℝ) : EReal) from ofBits_two]
  exact ereal_fold (fun d => x (ix3 (i 0) (i 1) d)) (fun d => W (ix2 (i 2) d)) (fun d => dl (ix2 (i 2) d))
    (fun d => mu (ix2 (i 2) d)) (fun r d => A (ix2 r d)) (fun r => B (ix2 (i 2) r)) (b (ix1 (i 2)))
    (fun d => hx _) (fun d => hW _) (fun d => hdl _) (fun d => hmu _) (fun r d => hA _) (fun r => hB _) (hb _)

end Cert.Spec

end
-- ==== Proof.Entry.lean ====
/-
  What the kernel's call finds in its three operand arrays, index by index, as functions of the program's arguments.

  Before the call the wrapper
    · reads the activations x[β, s, d] as a matrix of 8192 rows: row 2048·β + s, column d (same row-major position);
    · builds the effective weight  W[o,d] + δ[o,d]·μ[o,d] + 2·∑ r, B[o,r]·A[r,d]  (μ the 0/1 mask read as a float,
      the factor two a scalar constant broadcast to the whole matrix, B·A a contraction over the rank axis of 16);
    · reads the bias b[o] as a matrix of one row: entry (0, o).
  The activations and the effective weight are then converted to a narrower float format; over the extended reals a
  change of format is the identity, so the entries are unchanged.
-/
import proofs.«170858_j66700842106980_2_alg».proof.Proof.Gen.KernelIdeal.Frame
import proofs.«170858_j66700842106980_2_alg».proof.Proof.Spec
import Idealize.ShloMosaic.Lib.Pipeline.Value
import Idealize.ShloMosaic.Lib.ValueIdx
import Idealize.ShloMosaic.Lib.StableHlo.Run
import Idealize.ShloMosaic.PureOps.Ideal.Laws
noncomputable section
open Idealize.ShloMosaic Idealize.ShloMosaic.TcCoe Idealize.SL.Sem Idealize.ShloMosaic.ValueIdx
namespace Cert.KernelIdeal.Entry
open Cert.KernelIdeal Cert.KernelIdeal.Gen
variable (m : (ℓ : Loc nD τ sig) → Buf (Elt Ideal) ℓ)

/-! ## The three arrays as terms of the wrapper's operations -/

/-- The activations: the argument reshaped to 8192 rows, then the change of format. -/
theorem x2_term (c : Dev nD) :
    (V m c main_v10 : S8192x4096.Idx → EReal)
      = truncf (F := Ideal) .bf16
          (shapeCast S8192x4096 (m ((c : Thread nD τ).loc main_arg0) : FVec Ideal S4x2048x4096 .f32)
            shapeCasts_S4x2048x4096_S8192x4096) bitsLt_bf16_f32 := by
  show StableHlo.after hostOps0 (fun b => m (c, b)) (Proc.devRef .tc main_v10) = _
  after_results
  rfl

/-- The effective weight: (W + δ·μ) + 2·(B·A), then the change of format. -/
theorem weff_term (c : Dev nD) :
    (V m c main_v7 : S4096x4096.Idx → EReal)
      = truncf (F := Ideal) .bf16
          (addf
            (addf (m ((c : Thread nD τ).loc main_arg1) : FVec Ideal S4096x4096 .f32)
              (mulf (m ((c : Thread nD τ).loc main_arg5) : FVec Ideal S4096x4096 .f32)
                (uitofp (F := Ideal) .f32 (m ((c : Thread nD τ).loc main_arg6)))))
            (mulf (broadcastInDim S4096x4096 ![] bcast_S_S4096x4096 (constant (F := Ideal) S_ .f32 0x40000000#32))
              (Host.dotGeneral (F := Ideal) (φ₁ := .f32) (φ₂ := .f32) dot_S4096x16_S16x4096_S4096x4096_1_0_0_1_n_n none
                (m ((c : Thread nD τ).loc main_arg4) : FVec Ideal S4096x16 .f32)
                (m ((c : Thread nD τ).loc main_arg3) : FVec Ideal S16x4096 .f32))))
          bitsLt_bf16_f32 := by
  show StableHlo.after hostOps0 (fun b => m (c, b)) (Proc.devRef .tc main_v7) = _
  after_results

/-- The bias: the argument reshaped to one row. -/
theorem bias_term (c : Dev nD) :
    (V m c main_v8 : S1x4096.Idx → EReal)
      = shapeCast S1x4096 (m ((c : Thread nD τ).loc main_arg2) : FVec Ideal S4096 .f32) shapeCasts_S4096_S1x4096 := by
  show StableHlo.after hostOps0 (fun b => m (c, b)) (Proc.devRef .tc main_v8) = _
  after_results
  rfl

/-! ## The low-rank product B·A at an index

The contraction takes axis 1 of B[4096, 16] against axis 0 of A[16, 4096]; the free axes are B's axis 0 (the output's
row) and A's axis 1 (the output's column). -/

/-- B's free axis carries the output row. -/
theorem lhs_BA_0 (i : S4096x4096.Idx) (q : dot_S4096x16_S16x4096_S4096x4096_1_0_0_1_n_n.contr.Idx) :
    (dot_S4096x16_S16x4096_S4096x4096_1_0_0_1_n_n.lhsIdx i q 0).val = (i 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
/-- B's contracted axis carries the contraction position. -/
theorem lhs_BA_1 (i : S4096x4096.Idx) (q : dot_S4096x16_S16x4096_S4096x4096_1_0_0_1_n_n.contr.Idx) :
    (dot_S4096x16_S16x4096_S4096x4096_1_0_0_1_n_n.lhsIdx i q 1).val = (q ⟨0, by decide⟩).val :=
  dot_S4096x16_S16x4096_S4096x4096_1_0_0_1_n_n.lhsIdx_val_of_single rfl i q
/-- A's contracted axis carries the contraction position. -/
theorem rhs_BA_0 (i : S4096x4096.Idx) (q : dot_S4096x16_S16x4096_S4096x4096_1_0_0_1_n_n.contr.Idx) :
    (dot_S4096x16_S16x4096_S4096x4096_1_0_0_1_n_n.rhsIdx i q 0).val = (q ⟨0, by decide⟩).val :=
  dot_S4096x16_S16x4096_S4096x4096_1_0_0_1_n_n.rhsIdx_val_of_single rfl i q
/-- A's free axis carries the output column. -/
theorem rhs_BA_1 (i : S4096x4096.Idx) (q : dot_S4096x16_S16x4096_S4096x4096_1_0_0_1_n_n.contr.Idx) :
    (dot_S4096x16_S16x4096_S4096x4096_1_0_0_1_n_n.rhsIdx i q 1).val = (i 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- Entry (o, d) of B·A is the sum over the rank axis of B[o, r]·A[r, d]. -/
theorem dotBA_apply (B : FVec Ideal S4096x16 .f32) (A : FVec Ideal S16x4096 .f32) (o d : Fin 4096) :
    Host.dotGeneral (F := Ideal) dot_S4096x16_S16x4096_S4096x4096_1_0_0_1_n_n none B A (ix2 o d) = ∑ r : Fin 16, B (ix2 o r) * A (ix2 r d) := by
  simp only [Host.dotGeneral]
  rw [Ideal.dotGeneral_apply, ← Equiv.sum_comp (ValueIdx.contrEquiv1 dot_S4096x16_S16x4096_S4096x4096_1_0_0_1_n_n 16 rfl rfl).symm]
  refine Finset.sum_congr rfl fun k _ => ?_
  have hk := ValueIdx.contrEquiv1_symm_val dot_S4096x16_S16x4096_S4096x4096_1_0_0_1_n_n 16 rfl rfl k
  have el : dot_S4096x16_S16x4096_S4096x4096_1_0_0_1_n_n.lhsIdx (ix2 o d) ((ValueIdx.contrEquiv1 dot_S4096x16_S16x4096_S4096x4096_1_0_0_1_n_n 16 rfl rfl).symm k) = ix2 o k := funext fun a => Fin.ext (by
    match a with
    | ⟨0, _⟩ => exact lhs_BA_0 _ _
    | ⟨1, _⟩ => exact (lhs_BA_1 _ _).trans hk)
  have er : dot_S4096x16_S16x4096_S4096x4096_1_0_0_1_n_n.rhsIdx (ix2 o d) ((ValueIdx.contrEquiv1 dot_S4096x16_S16x4096_S4096x4096_1_0_0_1_n_n 16 rfl rfl).symm k) = ix2 k d := funext fun a => Fin.ext (by
    match a with
    | ⟨0, _⟩ => exact (rhs_BA_0 _ _).trans hk
    | ⟨1, _⟩ => exact rhs_BA_1 _ _)
  rw [el, er]

/-- The broadcast scalar constant reads the number two at every index. -/
theorem two_apply (i : S4096x4096.Idx) :
    broadcastInDim S4096x4096 ![] bcast_S_S4096x4096 (constant (F := Ideal) S_ .f32 0x40000000#32) i = Cert.Spec.two := by
  rw [broadcastInDim_apply _ bcast_S_S4096x4096 (constant (F := Ideal) S_ .f32 0x40000000#32) i (fun a => a.elim0) (fun a => a.elim0)]
  rfl

/-! ## The three arrays at an index -/

theorem x2_apply (c : Dev nD) (β : Fin 4) (s : Fin 2048) (d : Fin 4096) :
    V m c main_v10 (ix2 (⟨2048 * β.val + s.val, by have := β.isLt; have := s.isLt; omega⟩ : Fin 8192) d)
      = m ((c : Thread nD τ).loc main_arg0) (ix3 β s d) := by
  refine (congrFun (x2_term m c) _).trans ?_
  rw [truncf_apply]
  refine shapeCast_apply _ _ _ (ix3 β s d) ?_
  rw [Shape.rowMajor_val_three, Shape.rowMajor_val_two]
  show (β.val * 2048 + s.val) * 4096 + d.val = (2048 * β.val + s.val) * 4096 + d.val
  omega

theorem weff_apply (c : Dev nD) (o d : Fin 4096) :
    V m c main_v7 (ix2 o d)
      = Cert.Spec.foldedWeight (m ((c : Thread nD τ).loc main_arg1)) (m ((c : Thread nD τ).loc main_arg5))
          (uitofp (F := Ideal) .f32 (m ((c : Thread nD τ).loc main_arg6))) (m ((c : Thread nD τ).loc main_arg3)) (m ((c : Thread nD τ).loc main_arg4)) o d := by
  refine (congrFun (weff_term m c) _).trans ?_
  rw [truncf_apply, addf_apply, addf_apply, mulf_apply, mulf_apply, two_apply, dotBA_apply]
  rfl

theorem bias_apply (c : Dev nD) (o : Fin 4096) :
    V m c main_v8 (ix2 (0 : Fin 1) o) = m ((c : Thread nD τ).loc main_arg2) (ix1 o) := by
  refine (congrFun (bias_term m c) _).trans ?_
  refine shapeCast_apply _ _ _ (ix1 o) ?_
  rw [Shape.rowMajor_val_one, Shape.rowMajor_val_two]
  show o.val = (0 : Fin 1).val * 4096 + o.val
  simp

end Cert.KernelIdeal.Entry
end
-- ==== Proof.KernelResult.lean ====
/-
  The kernel program's result as a function of its arguments: the folded form.

  The region's result array holds, at row `2048·β + s` and column `o`, the inner product of that row of the reshaped
  activations with row `o` of the effective weight, plus the bias entry `o`; the wrapper's reshape before the call puts
  `x[β, s, ·]` in that row, builds the effective weight `(W + δ·μ) + 2·(B·A)` and lays the bias out as a row; the reshape
  after the call reads the row back as (β, s). Together: the folded form of the specification.
-/
import proofs.«170858_j66700842106980_2_alg».proof.Proof.Output
import proofs.«170858_j66700842106980_2_alg».proof.Proof.Entry
import proofs.«170858_j66700842106980_2_alg».proof.Proof.Spec

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Acc Cert.KernelIdeal.Out Cert.KernelIdeal.Entry

variable (m : (ℓ : Loc nD τ sig) → Buf (Elt Ideal) ℓ) (ρ : Dev nD → PrngReg)

/-- The reshape after the call, at an index: (β, s, o) reads row `2048·β + s`, column `o` (the same row-major position). -/
theorem reshape_apply (c : Dev nD) (β : Fin 4) (s : Fin 2048) (o : Fin 4096) :
    shapeCast S4x2048x4096 (kout m c) shapeCasts_S8192x4096_S4x2048x4096 (ix3 β s o)
      = kout m c (ix2 (⟨2048 * β.val + s.val, by have := β.isLt; have := s.isLt; omega⟩ : Fin 8192) o) := by
  refine shapeCast_apply _ _ (ix3 β s o) _ ?_
  rw [Shape.rowMajor_val_two, Shape.rowMajor_val_three]
  show (2048 * β.val + s.val) * 4096 + o.val = (β.val * 2048 + s.val) * 4096 + o.val
  omega

/-- The program's result buffer is the folded form of the argument arrays. -/
theorem result_eq (c : Dev nD) :
    Pipeline.afterTail₀ cfgs (dats m) 0 (V0 m) [hostOps1] c main_v12
      = Cert.Spec.foldedForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (uitofp (F := Ideal) .f32 (m ((c.tc : Thread nD τ).loc main_arg6))) := by
  rw [tail_eq]
  funext i
  obtain ⟨β, s, o, rfl⟩ : ∃ (β : Fin 4) (s : Fin 2048) (o : Fin 4096), i = ix3 β s o := ⟨i 0, i 1, i 2, eq_ix3 i⟩
  rw [reshape_apply]
  unfold kout Cert.Spec.foldedForm
  exact congrArg₂ (· + ·)
    (Finset.sum_congr rfl fun d _ => congrArg₂ (· * ·) (x2_apply m c β s d) (weff_apply m c o d))
    (bias_apply m c o)

/-- At the ideal instance every weakly fair execution of the kernel program terminates with its result at the folded
    form of the arguments and the arguments unchanged. -/
theorem run : θ_run defs (onTc (τ := τ) (main (F := Ideal))) ⟨m, fun _ => 0, ρ⟩ (fun r => ∀ c : Dev nD,
      r.2.mem ((c.tc : Thread nD τ).loc main_v12) = Cert.Spec.foldedForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (uitofp (F := Ideal) .f32 (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.RefIsSplit.lean ====
/-
  The reference program's result, read entry by entry, is the split form.

  The reference computes, for the output entry at batch `β`, position `s` and output feature `o`,

      (((∑ d, x[β,s,d]·W[o,d]) + b[o]) + (∑ r, (∑ d, x[β,s,d]·A[r,d]) · B[o,r]) · 2) + ∑ d, x[β,s,d]·(δ[o,d]·μ[o,d])

  in fourteen stages: four contractions (against the frozen weight, against the two low-rank factors one after the
  other, and against the masked correction), two broadcasts of the bias, the constant two and its broadcast, the mask
  read as a float, and the five pointwise sums and products that join them. Each stage reads its operands at an index computed from the output index;
  the lemmas below say that these computed indices are the coordinate triples, pairs and singletons the split form is
  written with, and the theorem chains the stages from the last sum inwards.
-/
import proofs.«170858_j66700842106980_2_alg».proof.Proof.Gen.ReferenceIdeal.Read
import proofs.«170858_j66700842106980_2_alg».proof.Proof.Spec
noncomputable section
open Idealize.ShloMosaic Idealize.ShloMosaic.TcCoe Idealize.SL.Sem Idealize.ShloMosaic.ValueIdx
namespace Cert.RefBridge
open Cert.ReferenceIdeal Cert.ReferenceIdeal.Read

/-! ## The indices each contraction reads at -/

/-- The frozen-weight contraction reads `x` at (β, s, d). -/
theorem lidx_v0 (i : S4x2048x4096.Idx) (k : Fin 4096) : lidx_main_v0 i k = ix3 (i 0) (i 1) k :=
  funext fun a => Fin.ext (by match a with | ⟨0, _⟩ => rfl | ⟨1, _⟩ => rfl | ⟨2, _⟩ => rfl)

/-- The frozen-weight contraction reads `W` at (o, d). -/
theorem ridx_v0 (i : S4x2048x4096.Idx) (k : Fin 4096) : ridx_main_v0 i k = ix2 (i 2) k :=
  funext fun a => Fin.ext (by match a with | ⟨0, _⟩ => rfl | ⟨1, _⟩ => rfl)

/-- The sparse-branch contraction reads `x` at (β, s, d). -/
theorem lidx_v11 (i : S4x2048x4096.Idx) (k : Fin 4096) : lidx_main_v11 i k = ix3 (i 0) (i 1) k :=
  funext fun a => Fin.ext (by match a with | ⟨0, _⟩ => rfl | ⟨1, _⟩ => rfl | ⟨2, _⟩ => rfl)

/-- The sparse-branch contraction reads the masked correction at (o, d). -/
theorem ridx_v11 (i : S4x2048x4096.Idx) (k : Fin 4096) : ridx_main_v11 i k = ix2 (i 2) k :=
  funext fun a => Fin.ext (by match a with | ⟨0, _⟩ => rfl | ⟨1, _⟩ => rfl)

/-- The outer low-rank contraction reads `B` at (o, r). -/
theorem ridx_v5 (i : S4x2048x4096.Idx) (k : Fin 16) : ridx_main_v5 i k = ix2 (i 2) k :=
  funext fun a => Fin.ext (by match a with | ⟨0, _⟩ => rfl | ⟨1, _⟩ => rfl)

/-- The inner low-rank contraction, at the entry (β, s, r) the outer one asks for, reads `x` at (β, s, d). -/
theorem lidx_v4_v5 (i : S4x2048x4096.Idx) (k : Fin 16) (d : Fin 4096) :
    lidx_main_v4 (lidx_main_v5 i k) d = ix3 (i 0) (i 1) d :=
  funext fun a => Fin.ext (by match a with | ⟨0, _⟩ => rfl | ⟨1, _⟩ => rfl | ⟨2, _⟩ => rfl)

/-- The inner low-rank contraction, at the entry (β, s, r), reads `A` at (r, d). -/
theorem ridx_v4_v5 (i : S4x2048x4096.Idx) (k : Fin 16) (d : Fin 4096) :
    ridx_main_v4 (lidx_main_v5 i k) d = ix2 k d :=
  funext fun a => Fin.ext (by match a with | ⟨0, _⟩ => rfl | ⟨1, _⟩ => rfl)

/-- The two broadcasts of the bias, composed, read `b` at o. -/
theorem idx_v1_v2 (i : S4x2048x4096.Idx) : idx_main_v1 (idx_main_v2 i) = ix1 (i 2) :=
  funext fun a => Fin.ext (by match a with | ⟨0, _⟩ => rfl)

/-! ## The stages chained -/

theorem reference_is_split (x : FVec Ideal S4x2048x4096 .f32) (W : FVec Ideal S4096x4096 .f32) (b : FVec Ideal S4096 .f32)
    (A : FVec Ideal S16x4096 .f32) (B : FVec Ideal S4096x16 .f32) (dl : FVec Ideal S4096x4096 .f32) (mk : IVec S4096x4096 1) :
    val_main_v12 (F := Ideal) x W b A B dl mk = Cert.Spec.splitForm x W b A B dl (uitofp (F := Ideal) .f32 mk) := by
  funext i
  rw [val_main_v12_apply, val_main_v8_apply, val_main_v3_apply, val_main_v0_apply, val_main_v2_apply, val_main_v1_apply,
    val_main_v7_apply, val_main_v5_apply, val_main_v6_apply, val_main_cst_apply, val_main_v11_apply]
  -- the masked correction at an entry: the correction times the mask read as a float
  have h10 : ∀ j, val_main_v10 (F := Ideal) dl mk j = dl j * (uitofp (F := Ideal) .f32 mk) j := fun _ => rfl
  simp only [val_main_v4_apply, h10, lidx_v0, ridx_v0, lidx_v11, ridx_v11, ridx_v5,
    lidx_v4_v5, ridx_v4_v5, idx_v1_v2, Ideal.addf_def, Ideal.mulf_def, Ideal.ofBits_def]
  unfold Cert.Spec.splitForm
  rfl

end Cert.RefBridge
end
-- ==== Proof.Finite.lean ====
/-
  Finite inputs are real numbers.

  The precondition is a conjunction of six tests, one per float input, each of the form "every entry v satisfies
  |v| < +∞". At the extended reals |v| is max v (-v), which is below ⊤ exactly when v is neither ⊤ nor ⊥, that is,
  exactly when v is (the image of) a real number. So from the conjunction being true we read, array by array and entry
  by entry, that every float input entry is a real number. The mask input is a one-bit word, whose conversion to a float
  is the real number 0 or 1.
-/
import proofs.«170858_j66700842106980_2_alg».proof.Pre_finite_inputs
import proofs.«170858_j66700842106980_2_alg».proof.Proof.Gen.Pre_finite_inputs
import proofs.«170858_j66700842106980_2_alg».proof.Proof.FoldLaw
import Idealize.ShloMosaic.Lib.ReduceAll
noncomputable section
open Idealize.ShloMosaic Idealize.ShloMosaic.TcCoe Idealize.SL.Sem
namespace Cert.Finite
open Cert.Pre_finite_inputs Cert.FoldLaw

/-- The binary32 word `0x7F800000` (sign 0, exponent all ones, fraction 0) is +∞. -/
theorem ofBits_inf : Ideal.ofBits .f32 0x7F800000#32 = (⊤ : EReal) := by
  simp [Ideal.ofBits, Ideal.ieee]

/-- An extended real whose absolute value `max a (-a)` is below ⊤ is a real number: it is neither ⊤ (then `a = ⊤`
    is the maximum) nor ⊥ (then `-a = ⊤` is). -/
theorem isReal_of_abs_lt_top (a : EReal) (h : max a (-a) < ⊤) : IsReal a := by
  induction a using EReal.rec with
  | bot => simp at h
  | coe r => exact ⟨r, rfl⟩
  | top => simp at h

/-- The ordered "less than" comparison of two extended reals answers 1 only when the first is below the second. -/
theorem lt_of_cmp_olt {x y : EReal} (h : Ideal.cmp .olt x y = 1#1) : x < y := by
  unfold Ideal.cmp at h
  by_contra hn
  simp [hn] at h

/-- One entry of one test: if `|v i| < +∞` holds at the index `i` of an array of any shape, the entry `v i` is a real
    number. The right-hand side of the comparison is the scalar constant +∞ broadcast to the array's shape, which at
    every index is that constant. -/
theorem isReal_of_test {s : Shape} (hb : S_.BroadcastsInDim s (![] : Fin 0 → Fin s.rank)) (v : FVec Ideal s .f32)
    (i : s.Idx)
    (h : cmpf .olt (Host.absf v) (broadcastInDim s ![] hb (constant S_ .f32 0x7F800000#32)) i = 1#1) :
    IsReal (v i) := by
  have h' : Ideal.cmp .olt (max (v i) (-(v i))) (Ideal.ofBits .f32 0x7F800000#32) = 1#1 := h
  rw [ofBits_inf] at h'
  exact isReal_of_abs_lt_top _ (lt_of_cmp_olt h')

theorem real_of_finite_inputs [Cert.Pre_finite_inputs.Facts] (x : FVec Ideal S4x2048x4096 .f32) (W : FVec Ideal S4096x4096 .f32) (b : FVec Ideal S4096 .f32)
    (A : FVec Ideal S16x4096 .f32) (B : FVec Ideal S4096x16 .f32) (dl : FVec Ideal S4096x4096 .f32) (mk : IVec S4096x4096 1)
    (h : Cert.Pre_finite_inputs.fn (F := Ideal) x W b A B dl mk = fun _ => 1#1) :
    (∀ i, IsReal (x i)) ∧ (∀ i, IsReal (W i)) ∧ (∀ i, IsReal (b i)) ∧ (∀ i, IsReal (A i)) ∧ (∀ i, IsReal (B i)) ∧ (∀ i, IsReal (dl i)) := by
  -- the result has the empty shape, hence exactly one index; read the claim there
  haveI : Subsingleton S_.Idx := ⟨fun a b => funext fun d => d.elim0⟩
  have h0 := congrFun h (fun d => d.elim0)
  dsimp only [fn, fn_part1] at h0
  -- a conjunction of one-bit words is 1 only when both are: peel the six tests off, last first
  obtain ⟨h5, hdl⟩ := IntOp.andi_eq_one.1 (show IntOp.andi _ _ = 1#1 from h0)
  obtain ⟨h4, hB⟩ := IntOp.andi_eq_one.1 (show IntOp.andi _ _ = 1#1 from h5)
  obtain ⟨h3, hA⟩ := IntOp.andi_eq_one.1 (show IntOp.andi _ _ = 1#1 from h4)
  obtain ⟨h2, hb⟩ := IntOp.andi_eq_one.1 (show IntOp.andi _ _ = 1#1 from h3)
  obtain ⟨hx, hW⟩ := IntOp.andi_eq_one.1 (show IntOp.andi _ _ = 1#1 from h2)
  -- each test is a conjunction over all entries that came out 1, so every entry passed; an entry that passed is real
  exact ⟨fun i => isReal_of_test _ x i (Host.reduce_andi_all _ _ _ _ _ hx i),
    fun i => isReal_of_test _ W i (Host.reduce_andi_all _ _ _ _ _ hW i),
    fun i => isReal_of_test _ b i (Host.reduce_andi_all _ _ _ _ _ hb i),
    fun i => isReal_of_test _ A i (Host.reduce_andi_all _ _ _ _ _ hA i),
    fun i => isReal_of_test _ B i (Host.reduce_andi_all _ _ _ _ _ hB i),
    fun i => isReal_of_test _ dl i (Host.reduce_andi_all _ _ _ _ _ hdl i)⟩

theorem real_of_mask (mk : IVec S4096x4096 1) (i : S4096x4096.Idx) : IsReal ((uitofp (F := Ideal) .f32 mk : FVec Ideal S4096x4096 .f32) i) := ⟨_, rfl⟩
end Cert.Finite
end
-- ==== Proof.lean ====
/-
  The certificate of a low-rank-plus-sparse adapted linear layer: a Pallas kernel against its jnp reference.

  The layer maps activations `x` f32[4, 2048, 4096] through a frozen weight `W` with bias `b`, a rank-16 adapter
  `B·A` scaled by `32/16 = 2`, and a sparse correction `δ` selected by a 0/1 mask `μ`.

    reference   out = (x·Wᵀ + b) + ((x·Aᵀ)·Bᵀ)·2 + x·(δ ⊙ μ)ᵀ                  three separate contractions
    kernel      w_eff = (W + δ ⊙ μ) + 2·(B·A), cast to bf16;  out = x_bf16 · w_effᵀ + b
                one [8192, 4096] × [4096, 4096]ᵀ product, tiled 1024 × 2048 × 512 over an 8 × 2 × 8 grid with an f32
                accumulator carried across the eight contraction steps and the bias added at the last

  At the ideal instance floats are extended reals, every operation is exact and a change of float format is the
  identity, so the kernel's result is the FOLDED form `(∑ d, x·((W + δμ) + 2·∑ r, B·A)) + b` (Proof/KernelResult.lean: the
  accumulator's invariant by induction over the grid points, Proof/Accumulate.lean; the output tiles cover the result,
  Proof/Output.lean; the wrapper's arrays read at an index, Proof/Entry.lean) and the reference's is the SPLIT form
  (Proof/RefIsSplit.lean). The two agree by distributivity and an exchange of two finite sums, which hold over the
  extended reals where every entry is a real number (Proof/FoldLaw.lean, Proof/Spec.lean): that is what the
  precondition "every float input is finite" provides (Proof/Finite.lean); the mask's float is 0 or 1.
  The ideal pass rewrote nothing, so the kernel's idealization is its own text read at the ideal instance. The three
  frames are the generated frame runs (the reference's is its run with the result forgotten).
-/
import proofs.«170858_j66700842106980_2_alg».proof.Defs
import proofs.«170858_j66700842106980_2_alg».proof.Proof.Gen.Kernel
import proofs.«170858_j66700842106980_2_alg».proof.Proof.Gen.Kernel.Skeleton
import proofs.«170858_j66700842106980_2_alg».proof.Proof.Gen.Kernel.Launch
import proofs.«170858_j66700842106980_2_alg».proof.Proof.Gen.Kernel.Points
import proofs.«170858_j66700842106980_2_alg».proof.Proof.Gen.Kernel.Frame
import proofs.«170858_j66700842106980_2_alg».proof.Proof.Gen.KernelIdeal
import proofs.«170858_j66700842106980_2_alg».proof.Proof.Gen.KernelIdeal.Skeleton
import proofs.«170858_j66700842106980_2_alg».proof.Proof.Gen.KernelIdeal.Launch
import proofs.«170858_j66700842106980_2_alg».proof.Proof.Gen.KernelIdeal.Points
import proofs.«170858_j66700842106980_2_alg».proof.Proof.Gen.KernelIdeal.Frame
import proofs.«170858_j66700842106980_2_alg».proof.Proof.Gen.ReferenceIdeal
import proofs.«170858_j66700842106980_2_alg».proof.Proof.Gen.ReferenceIdeal.Run
import proofs.«170858_j66700842106980_2_alg».proof.Proof.Gen.ReferenceIdeal.Read
import proofs.«170858_j66700842106980_2_alg».proof.Proof.Gen.Pre_finite_inputs
import proofs.«170858_j66700842106980_2_alg».proof.Proof.KernelResult
import proofs.«170858_j66700842106980_2_alg».proof.Proof.RefIsSplit
import proofs.«170858_j66700842106980_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel ends at the folded form and the reference at the split form of
    the same arrays; under the precondition every entry is a real number, where the two forms are one function. -/
theorem algebraic : Cert.algebraic_KernelIdeal_ReferenceIdeal := by
  intro m ρ m' ρ' hpre hagree
  refine ⟨fun c => Cert.Spec.foldedForm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (uitofp (F := Ideal) .f32 (m ((c.tc : Thread Cert.KernelIdeal.nD Cert.KernelIdeal.τ).loc Cert.KernelIdeal.main_arg6))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  refine (Cert.ReferenceIdeal.Read.val_main_v12_eq _ _ _ _ _ _ _).trans ?_
  refine (Cert.RefBridge.reference_is_split _ _ _ _ _ _ _).trans ?_
  obtain ⟨rx, rW, rb, rA, rB, rdl⟩ := Cert.Finite.real_of_finite_inputs _ _ _ _ _ _ _ (hpre c)
  exact (Cert.Spec.folded_eq_split _ _ _ _ _ _ _ rx rW rb rA rB rdl (Cert.Finite.real_of_mask _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
